-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x6 : Shape := ⟨2, ![262144, 6]⟩
abbrev S6x64 : Shape := ⟨2, ![6, 64]⟩
abbrev S262144x6x64 : Shape := ⟨3, ![262144, 6, 64]⟩
abbrev S_ : Shape := ⟨0, ![]⟩

class Facts : Prop where
  bcast_S_S262144x6 : S_.BroadcastsInDim S262144x6 (![] : Fin 0 → Fin S262144x6.rank)
  reducesTo_S262144x6_S_d0_1 : S262144x6.ReducesTo [0, 1] S_
  h_S_ : 0 < S_.numel
  bcast_S_S6x64 : S_.BroadcastsInDim S6x64 (![] : Fin 0 → Fin S6x64.rank)
  reducesTo_S6x64_S_d0_1 : S6x64.ReducesTo [0, 1] S_
  bcast_S_S262144x6x64 : S_.BroadcastsInDim S262144x6x64 (![] : Fin 0 → Fin S262144x6x64.rank)
  reducesTo_S262144x6x64_S_d0_1_2 : S262144x6x64.ReducesTo [0, 1, 2] S_

variable [Facts]

def fn_part1 {F : FTy → Type} [FloatOps F] (main_v13 : IVec S_ 1) (main_v16 : IVec S262144x6x64 1) : IVec S_ 1 :=
  let main_c_5 : IVec S_ 1 := constantI S_ 1 1#1
  let main_v17 : IVec S_ 1 := (fun x v => Host.reduce IntOp.andi x v reducesTo_S262144x6x64_S_d0_1_2 h_S_) main_v16 main_c_5
  let main_v18 : IVec S_ 1 := andi main_v13 main_v17
  main_v18

def fn {F : FTy → Type} [FloatOps F] (main_arg0 : FVec F S262144x6 .f32) (main_arg1 : FVec F S6x64 .f32) (main_arg2 : FVec F S6x64 .f32) (main_arg3 : FVec F S262144x6x64 .f32) : IVec S_ 1 :=
  let main_v0 : FVec F S262144x6 .f32 := Host.absf main_arg0
  let main_cst : FVec F S_ .f32 := constant S_ .f32 0x7F800000#32
  let main_v1 : FVec F S262144x6 .f32 := broadcastInDim S262144x6 ![] bcast_S_S262144x6 main_cst
  let main_v2 : IVec S262144x6 1 := cmpf .olt main_v0 main_v1
  let main_c : IVec S_ 1 := constantI S_ 1 1#1
  let main_v3 : IVec S_ 1 := (fun x v => Host.reduce IntOp.andi x v reducesTo_S262144x6_S_d0_1 h_S_) main_v2 main_c
  let main_v4 : FVec F S6x64 .f32 := Host.absf main_arg1
  let main_cst_0 : FVec F S_ .f32 := constant S_ .f32 0x7F800000#32
  let main_v5 : FVec F S6x64 .f32 := broadcastInDim S6x64 ![] bcast_S_S6x64 main_cst_0
  let main_v6 : IVec S6x64 1 := cmpf .olt main_v4 main_v5
  let main_c_1 : IVec S_ 1 := constantI S_ 1 1#1
  let main_v7 : IVec S_ 1 := (fun x v => Host.reduce IntOp.andi x v reducesTo_S6x64_S_d0_1 h_S_) main_v6 main_c_1
  let main_v8 : IVec S_ 1 := andi main_v3 main_v7
  let main_v9 : FVec F S6x64 .f32 := Host.absf main_arg2
  let main_cst_2 : FVec F S_ .f32 := constant S_ .f32 0x7F800000#32
  let main_v10 : FVec F S6x64 .f32 := broadcastInDim S6x64 ![] bcast_S_S6x64 main_cst_2
  let main_v11 : IVec S6x64 1 := cmpf .olt main_v9 main_v10
  let main_c_3 : IVec S_ 1 := constantI S_ 1 1#1
  let main_v12 : IVec S_ 1 := (fun x v => Host.reduce IntOp.andi x v reducesTo_S6x64_S_d0_1 h_S_) main_v11 main_c_3
  let main_v13 : IVec S_ 1 := andi main_v8 main_v12
  let main_v14 : FVec F S262144x6x64 .f32 := Host.absf main_arg3
  let main_cst_4 : FVec F S_ .f32 := constant S_ .f32 0x7F800000#32
  let main_v15 : FVec F S262144x6x64 .f32 := broadcastInDim S262144x6x64 ![] bcast_S_S262144x6x64 main_cst_4
  let main_v16 : IVec S262144x6x64 1 := cmpf .olt main_v14 main_v15
  fn_part1 (F := F) main_v13 main_v16
-- ==== Kernel.lean ====
abbrev S262144x6 : Shape := ⟨2, ![262144, 6]⟩
abbrev S6x64 : Shape := ⟨2, ![6, 64]⟩
abbrev S262144x6x64 : Shape := ⟨3, ![262144, 6, 64]⟩
abbrev S6 : Shape := ⟨1, ![6]⟩
abbrev S6x1 : Shape := ⟨2, ![6, 1]⟩
abbrev S1024x6 : Shape := ⟨2, ![1024, 6]⟩
abbrev S1024x6x64 : Shape := ⟨3, ![1024, 6, 64]⟩
abbrev S1024x6x1 : Shape := ⟨3, ![1024, 6, 1]⟩
abbrev S1x6x64 : Shape := ⟨3, ![1, 6, 64]⟩
abbrev S262144x384 : Shape := ⟨2, ![262144, 384]⟩

abbrev nBuf : Space → Nat
  | .hbm => 12
  | .vmem => 10
  | .smem => 0
  | _ => 0

abbrev bufTy : (tb : Table) → Fin (tcTables nBuf tb) → BufTy
  | .hbm, ⟨0, _⟩ => ⟨S262144x6, .f32⟩
  | .hbm, ⟨1, _⟩ => ⟨S6x64, .f32⟩
  | .hbm, ⟨2, _⟩ => ⟨S6x64, .f32⟩
  | .hbm, ⟨3, _⟩ => ⟨S262144x6x64, .f32⟩
  | .hbm, ⟨4, _⟩ => ⟨S6, .f32⟩
  | .hbm, ⟨5, _⟩ => ⟨S6, .f32⟩
  | .hbm, ⟨6, _⟩ => ⟨S6x1, .f32⟩
  | .hbm, ⟨7, _⟩ => ⟨S6x64, .f32⟩
  | .hbm, ⟨8, _⟩ => ⟨S6x1, .f32⟩
  | .hbm, ⟨9, _⟩ => ⟨S6x64, .f32⟩
  | .hbm, ⟨10, _⟩ => ⟨S262144x6x64, .f32⟩
  | .hbm, ⟨11, _⟩ => ⟨S262144x384, .f32⟩
  | .local _ .vmem, ⟨0, _⟩ => ⟨S1024x6, .f32⟩
  | .local _ .vmem, ⟨1, _⟩ => ⟨S1024x6, .f32⟩
  | .local _ .vmem, ⟨2, _⟩ => ⟨S6x64, .f32⟩
  | .local _ .vmem, ⟨3, _⟩ => ⟨S6x64, .f32⟩
  | .local _ .vmem, ⟨4, _⟩ => ⟨S6x64, .f32⟩
  | .local _ .vmem, ⟨5, _⟩ => ⟨S6x64, .f32⟩
  | .local _ .vmem, ⟨6, _⟩ => ⟨S1024x6x64, .f32⟩
  | .local _ .vmem, ⟨7, _⟩ => ⟨S1024x6x64, .f32⟩
  | .local _ .vmem, ⟨8, _⟩ => ⟨S1024x6x64, .f32⟩
  | .local _ .vmem, ⟨9, _⟩ => ⟨S1024x6x64, .f32⟩
  | _, _ => ⟨S262144x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S6x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x6x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x6x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S6_S6x1_0 : S6.BroadcastsInDim S6x1 (![0] : Fin 1 → Fin S6x1.rank)
  bcast_S6x1_S6x64_0_1 : S6x1.BroadcastsInDim S6x64 (![0, 1] : Fin 2 → Fin S6x64.rank)
  inb_S1024x6_S1024x6_0_0 : ∀ a, (![0, 0] : Fin 2 → Nat) a + S1024x6.size a ≤ S1024x6.size a
  h_S1024x6 : 0 < S1024x6.numel
  inb_S6x64_S6x64_0_0 : ∀ a, (![0, 0] : Fin 2 → Nat) a + S6x64.size a ≤ S6x64.size a
  h_S6x64 : 0 < S6x64.numel
  shapeCasts_S6x64_S6x64 : S6x64.ShapeCasts S6x64
  inb_S1024x6x64_S1024x6x64_0_0_0 : ∀ a, (![0, 0, 0] : Fin 3 → Nat) a + S1024x6x64.size a ≤ S1024x6x64.size a
  h_S1024x6x64 : 0 < S1024x6x64.numel
  shapeCasts_S1024x6_S1024x6x1 : S1024x6.ShapeCasts S1024x6x1
  shapeCasts_S6x64_S1x6x64 : S6x64.ShapeCasts S1x6x64
  broadcasts_S1024x6x1_S1024x6x64 : S1024x6x1.Broadcasts S1024x6x64
  broadcasts_S1x6x64_S1024x6x64 : S1x6x64.Broadcasts S1024x6x64
  natLt_1_32 : 1 < 32
  shapeCasts_S262144x6x64_S262144x384 : S262144x6x64.ShapeCasts S262144x384
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x6.size a ≤ S262144x6.size a
  hwx0_0 : ∀ i : grid0.Coords, EltTy.bits .f32 = 32 ∨ (Rect.block (s := S262144x6) S1024x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x64.size a ≤ S6x64.size a
  hwx0_1 : ∀ i : grid0.Coords, EltTy.bits .f32 = 32 ∨ (Rect.block (s := S6x64) S6x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S6x64.size a ≤ S6x64.size a
  hwx0_2 : ∀ i : grid0.Coords, EltTy.bits .f32 = 32 ∨ (Rect.block (s := S6x64) S6x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S6x64.size a ≤ S6x64.size a
  hwx0_3 : ∀ i : grid0.Coords, EltTy.bits .f32 = 32 ∨ (Rect.block (s := S6x64) S6x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S6x64.size a ≤ S6x64.size a
  hwx0_4 : ∀ i : grid0.Coords, EltTy.bits .f32 = 32 ∨ (Rect.block (s := S6x64) S6x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x6x64.size a ≤ S262144x6x64.size a
  hwx0_5 : ∀ i : grid0.Coords, EltTy.bits .f32 = 32 ∨ (Rect.block (s := S262144x6x64) S1024x6x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x6x64.size a ≤ S262144x6x64.size a
  hwx0_6 : ∀ i : grid0.Coords, EltTy.bits .f32 = 32 ∨ (Rect.block (s := S262144x6x64) S1024x6x64.size (cc0_transform_6 i) (hinb0_6 i)).WholeWords (EltTy.packing .f32)

variable [Facts₀]

abbrev win0_0 : Pipeline.Window sig grid0 :=
  Pipeline.Window.ofSpec (Memref.whole main_arg0) S1024x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S6x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S6x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S6x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S6x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S1024x6x64.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1024x6x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S262144x6 : Shape := ⟨2, ![262144, 6]⟩
abbrev S6x64 : Shape := ⟨2, ![6, 64]⟩
abbrev S262144x6x64 : Shape := ⟨3, ![262144, 6, 64]⟩
abbrev S6 : Shape := ⟨1, ![6]⟩
abbrev S262144x6x1 : Shape := ⟨3, ![262144, 6, 1]⟩
abbrev S1x6x64 : Shape := ⟨3, ![1, 6, 64]⟩
abbrev S1x6x1 : Shape := ⟨3, ![1, 6, 1]⟩
abbrev S_ : Shape := ⟨0, ![]⟩
abbrev S262144x384 : Shape := ⟨2, ![262144, 384]⟩

abbrev nBuf : Space → Nat
  | .hbm => 35
  | .vmem => 0
  | .smem => 0
  | _ => 0

abbrev bufTy : (tb : Table) → Fin (tcTables nBuf tb) → BufTy
  | .hbm, ⟨0, _⟩ => ⟨S262144x6, .f32⟩
  | .hbm, ⟨1, _⟩ => ⟨S6x64, .f32⟩
  | .hbm, ⟨2, _⟩ => ⟨S6x64, .f32⟩
  | .hbm, ⟨3, _⟩ => ⟨S262144x6x64, .f32⟩
  | .hbm, ⟨4, _⟩ => ⟨S6, .f32⟩
  | .hbm, ⟨5, _⟩ => ⟨S6, .f32⟩
  | .hbm, ⟨6, _⟩ => ⟨S262144x6x1, .f32⟩
  | .hbm, ⟨7, _⟩ => ⟨S1x6x64, .f32⟩
  | .hbm, ⟨8, _⟩ => ⟨S262144x6x64, .f32⟩
  | .hbm, ⟨9, _⟩ => ⟨S262144x6x64, .f32⟩
  | .hbm, ⟨10, _⟩ => ⟨S262144x6x64, .f32⟩
  | .hbm, ⟨11, _⟩ => ⟨S1x6x64, .f32⟩
  | .hbm, ⟨12, _⟩ => ⟨S262144x6x64, .f32⟩
  | .hbm, ⟨13, _⟩ => ⟨S262144x6x64, .f32⟩
  | .hbm, ⟨14, _⟩ => ⟨S1x6x1, .f32⟩
  | .hbm, ⟨15, _⟩ => ⟨S1x6x1, .f32⟩
  | .hbm, ⟨16, _⟩ => ⟨S262144x6x64, .f32⟩
  | .hbm, ⟨17, _⟩ => ⟨S262144x6x64, .f32⟩
  | .hbm, ⟨18, _⟩ => ⟨S_, .f32⟩
  | .hbm, ⟨19, _⟩ => ⟨S262144x6x64, .f32⟩
  | .hbm, ⟨20, _⟩ => ⟨S262144x6x64, .i1⟩
  | .hbm, ⟨21, _⟩ => ⟨S262144x6x64, .f32⟩
  | .hbm, ⟨22, _⟩ => ⟨S262144x6x64, .f32⟩
  | .hbm, ⟨23, _⟩ => ⟨S262144x6x64, .f32⟩
  | .hbm, ⟨24, _⟩ => ⟨S262144x6x64, .f32⟩
  | .hbm, ⟨25, _⟩ => ⟨S262144x6x64, .f32⟩
  | .hbm, ⟨26, _⟩ => ⟨S262144x6x64, .f32⟩
  | .hbm, ⟨27, _⟩ => ⟨S262144x6x64, .f32⟩
  | .hbm, ⟨28, _⟩ => ⟨S262144x6x64, .f32⟩
  | .hbm, ⟨29, _⟩ => ⟨S262144x6x64, .f32⟩
  | .hbm, ⟨30, _⟩ => ⟨S_, .f32⟩
  | .hbm, ⟨31, _⟩ => ⟨S262144x6x64, .f32⟩
  | .hbm, ⟨32, _⟩ => ⟨S262144x6x64, .i1⟩
  | .hbm, ⟨33, _⟩ => ⟨S262144x6x64, .f32⟩
  | .hbm, ⟨34, _⟩ => ⟨S262144x384, .f32⟩
  | _, _ => ⟨S262144x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]

class Facts₀ : Prop where
  bcast_S262144x6_S262144x6x1_0_1 : S262144x6.BroadcastsInDim S262144x6x1 (![0, 1] : Fin 2 → Fin S262144x6x1.rank)
  bcast_S6x64_S1x6x64_1_2 : S6x64.BroadcastsInDim S1x6x64 (![1, 2] : Fin 2 → Fin S1x6x64.rank)
  bcast_S262144x6x1_S262144x6x64_0_1_2 : S262144x6x1.BroadcastsInDim S262144x6x64 (![0, 1, 2] : Fin 3 → Fin S262144x6x64.rank)
  bcast_S1x6x64_S262144x6x64_0_1_2 : S1x6x64.BroadcastsInDim S262144x6x64 (![0, 1, 2] : Fin 3 → Fin S262144x6x64.rank)
  bcast_S6_S1x6x1_1 : S6.BroadcastsInDim S1x6x1 (![1] : Fin 1 → Fin S1x6x1.rank)
  bcast_S1x6x1_S262144x6x64_0_1_2 : S1x6x1.BroadcastsInDim S262144x6x64 (![0, 1, 2] : Fin 3 → Fin S262144x6x64.rank)
  bcast_S_S262144x6x64 : S_.BroadcastsInDim S262144x6x64 (![] : Fin 0 → Fin S262144x6x64.rank)
  shapeCasts_S262144x6x64_S262144x384 : S262144x6x64.ShapeCasts S262144x384

variable [Facts₀]

class Facts : Prop extends Facts₀ where

variable [Facts]
-- ==== Proof.Spike.lean ====
/-
  One leaky integrate-and-fire update of a single neuron, on the extended reals.

  A neuron with membrane potential `u`, decay `β`, threshold `θ`, input `x`, weight `w` and bias `b` emits a spike
  exactly when its updated potential exceeds the threshold:
      u' = (β · u + (x · w + b)) - s(u) · θ,      out = s(u'),
  where `s(a)` is `1` if `θ < a` and `0` otherwise (reset by subtraction: the previous potential's own spike
  takes one threshold off).  Two spellings of `s` occur: the comparison `θ < a` itself, read as the integer 0 / 1
  (widened without sign to 32 bits and read signed, or the one bit read unsigned), and the comparison `0 < a - θ`.
  For a threshold that is a real number these are the same function of `a` on all of the extended reals, the two
  infinities included: subtracting a real moves neither infinity.
-/
import Idealize.ShloMosaic.PureOps.Ideal
import Idealize.ShloMosaic.PureOps.Ideal.Laws
import Mathlib.Data.EReal.Operations

noncomputable section

namespace Cert.Lif

open Idealize.ShloMosaic

/-- The spike indicator: `1` when the potential `a` is strictly above the threshold `θ`, else `0`. -/
def fire (θ a : EReal) : EReal := if θ < a then ((1 : ℝ) : EReal) else ((0 : ℝ) : EReal)

/-- One update step of one neuron: the spike of the new potential. -/
def lifStep (β θ x w b u : EReal) : EReal := fire θ ((β * u + (x * w + b)) - fire θ u * θ)

/-- The threshold's pattern denotes the real number one. -/
theorem thr_one : Ideal.ofBits .f32 0x3F800000#32 = ((1 : ℝ) : EReal) := by
  simp [Ideal.ofBits, Ideal.ieee, -EReal.coe_mul]
  norm_num

/-- The comparison `θ < a` as one bit, widened to 32 bits by zeros and read as a signed integer, is the indicator. -/
theorem fire_of_widened (a θ : EReal) :
    FloatOps.sitofp (F := Ideal) .f32 ((FloatOps.cmpf (F := Ideal) (φ := .f32) .ogt a θ).setWidth 32) = fire θ a := by
  show (((((BitVec.ofBool (decide (θ < a))).setWidth 32).toInt : ℤ) : ℝ) : EReal) = fire θ a
  unfold fire
  by_cases h : θ < a
  · simp [h]
  · simp [h]

/-- Subtracting a real threshold: `0 < a - θ` exactly when `θ < a`, on every extended real `a`. -/
theorem sub_pos_iff (a : EReal) (θ : ℝ) : (0 : EReal) < a - (θ : EReal) ↔ (θ : EReal) < a := by
  induction a using EReal.rec with
  | bot => simp
  | coe r => rw [← EReal.coe_sub, ← EReal.coe_zero, EReal.coe_lt_coe_iff, EReal.coe_lt_coe_iff]; exact sub_pos
  | top => simp [EReal.top_sub_coe]

/-- The comparison `0 < a - θ` as one bit read as an unsigned integer is the indicator, for a real threshold. -/
theorem fire_of_difference (a : EReal) (θ : ℝ) :
    FloatOps.uitofp (F := Ideal) .f32 (FloatOps.cmpf (F := Ideal) (φ := .f32) .ogt (a - (θ : EReal)) (Ideal.ofBits .f32 0x00000000#32))
      = fire (θ : EReal) a := by
  rw [Ideal.ofBits_zero_f32]
  show ((((BitVec.ofBool (decide ((0 : EReal) < a - (θ : EReal)))).toNat : ℕ) : ℝ) : EReal) = fire (θ : EReal) a
  unfold fire
  by_cases h : (θ : EReal) < a
  · have h' : (0 : EReal) < a - (θ : EReal) := (sub_pos_iff a θ).mpr h
    simp [h, h']
  · have h' : ¬ (0 : EReal) < a - (θ : EReal) := fun k => h ((sub_pos_iff a θ).mp k)
    simp [h, h']

end Cert.Lif

end
-- ==== Proof.Spikes.lean ====
/-
  The layer's output as one function of its argument arrays.

  For a batch of `n` rows, six channels and sixty-four neurons per channel, the spike at (row `p`, channel `q`, neuron `r`)
  is one leaky integrate-and-fire step of that neuron: decay `β q` of its channel, threshold `θ`, input `x (p, q)`, weight
  `W (q, r)`, bias `b (q, r)` and previous potential `u (p, q, r)`.  Nothing is summed: the input current is an outer
  product shaped broadcast, so each output entry depends on one entry of each array.
-/
import proofs.«164599_j77000173683381_1_alg».proof.Proof.Spike
import Idealize.ShloMosaic.Lib.ValueIdx

noncomputable section

namespace Cert.Lif

open Idealize.ShloMosaic Idealize.ShloMosaic.ValueIdx

/-- The spikes of `n` rows: entry `(p, q, r)` is `lifStep` of the entries named above. -/
def spikes {n : ℕ} (β : Fin 6 → EReal) (θ : EReal) (x : (⟨2, ![n, 6]⟩ : Shape).Idx → EReal)
    (w b : (⟨2, ![6, 64]⟩ : Shape).Idx → EReal) (u : (⟨3, ![n, 6, 64]⟩ : Shape).Idx → EReal) :
    (⟨3, ![n, 6, 64]⟩ : Shape).Idx → EReal :=
  fun i => lifStep (β (i 1)) θ (x (ix2 (i 0) (i 1))) (w (ix2 (i 1) (i 2))) (b (ix2 (i 1) (i 2))) (u i)

/-- The same read at an index given by its coordinates. -/
theorem spikes_apply {n : ℕ} (β : Fin 6 → EReal) (θ : EReal) (x : (⟨2, ![n, 6]⟩ : Shape).Idx → EReal)
    (w b : (⟨2, ![6, 64]⟩ : Shape).Idx → EReal) (u : (⟨3, ![n, 6, 64]⟩ : Shape).Idx → EReal)
    (p : Fin n) (q : Fin 6) (r : Fin 64) :
    spikes β θ x w b u (ix3 p q r) = lifStep (β q) θ (x (ix2 p q)) (w (ix2 q r)) (b (ix2 q r)) (u (ix3 p q r)) := rfl

end Cert.Lif

end
-- ==== Proof.LibBroadcast3.lean ====
/-
  Layout operations of small rank read at an index given by coordinates: the keep-dimension forms a broadcast of a
  per-row, per-channel or per-matrix quantity over a rank-3 array goes through.

  Each lemma says which operand element a result element reads.  A trailing unit axis added by a shape cast keeps the
  row-major position; a broadcast reads coordinate `0` on each of the operand's unit axes and the result's own coordinate
  on the others (when a non-unit axis happens to have extent one the two readings agree, the coordinate being `0`).
  The letters in a name spell the operand's shape and then the result's, `1` for a unit axis.
-/
import Idealize.ShloMosaic.Lib.Pipeline.Value
import Idealize.ShloMosaic.Lib.ValueIdx

namespace Cert.LibBroadcast3

open Idealize.ShloMosaic Idealize.ShloMosaic.ValueIdx

variable {α : Type}

/-! ## A trailing unit axis added by a shape cast -/

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-! ## Vector broadcasts to rank 3 -/

/-- An `[a, b, 1]` array broadcast to `[a, b, c]` reads, at `(p, q, r)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A `[1, b, c]` array broadcast to `[a, b, c]` reads, at `(p, q, r)`, the operand's one matrix at `(q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-! ## Host broadcasts that add unit axes -/

/-- An `[a, b]` array placed on axes 0 and 1 of `[a, b, 1]`. -/
theorem broadcastInDim_ab_ab1_apply {a b : ℕ} (h : (⟨2, ![a, b]⟩ : Shape).BroadcastsInDim ⟨3, ![a, b, 1]⟩ ![0, 1])
    (x : (⟨2, ![a, b]⟩ : Shape).Idx → α) (p : Fin a) (q : Fin b) (u : Fin 1) :
    broadcastInDim ⟨3, ![a, b, 1]⟩ ![0, 1] h x (ix3 p q u) = x (ix2 p q) := by
  refine broadcastInDim_apply _ h x (ix3 p q u) (ix2 p q) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl

/-- A `[b, c]` array placed on axes 1 and 2 of `[1, b, c]`. -/
theorem broadcastInDim_bc_1bc_apply {b c : ℕ} (h : (⟨2, ![b, c]⟩ : Shape).BroadcastsInDim ⟨3, ![1, b, c]⟩ ![1, 2])
    (x : (⟨2, ![b, c]⟩ : Shape).Idx → α) (u : Fin 1) (q : Fin b) (r : Fin c) :
    broadcastInDim ⟨3, ![1, b, c]⟩ ![1, 2] h x (ix3 u q r) = x (ix2 q r) := by
  refine broadcastInDim_apply _ h x (ix3 u q r) (ix2 q r) fun ax => ?_
  match ax with
  | ⟨0, _⟩ =>
    show q.val = if b = 1 then 0 else q.val
    split
    · have := q.isLt; omega
    · rfl
  | ⟨1, _⟩ =>
    show r.val = if c = 1 then 0 else r.val
    split
    · have := r.isLt; omega
    · rfl

/-- A `[b]` vector placed on axis 1 of `[1, b, 1]`. -/
theorem broadcastInDim_b_1b1_apply {b : ℕ} (h : (⟨1, ![b]⟩ : Shape).BroadcastsInDim ⟨3, ![1, b, 1]⟩ ![1])
    (x : (⟨1, ![b]⟩ : Shape).Idx → α) (u : Fin 1) (q : Fin b) (u' : Fin 1) :
    broadcastInDim ⟨3, ![1, b, 1]⟩ ![1] h x (ix3 u q u') = x (ix1 q) := by
  refine broadcastInDim_apply _ h x (ix3 u q u') (ix1 q) fun ax => ?_
  match ax with
  | ⟨0, _⟩ =>
    show q.val = if b = 1 then 0 else q.val
    split
    · have := q.isLt; omega
    · rfl

/-- A `[b]` vector placed on axis 0 of `[b, 1]`. -/
theorem broadcastInDim_b_b1_apply {b : ℕ} (h : (⟨1, ![b]⟩ : Shape).BroadcastsInDim ⟨2, ![b, 1]⟩ ![0])
    (x : (⟨1, ![b]⟩ : Shape).Idx → α) (q : Fin b) (u : Fin 1) :
    broadcastInDim ⟨2, ![b, 1]⟩ ![0] h x (ix2 q u) = x (ix1 q) := by
  refine broadcastInDim_apply _ h x (ix2 q u) (ix1 q) fun ax => ?_
  match ax with
  | ⟨0, _⟩ =>
    show q.val = if b = 1 then 0 else q.val
    split
    · have := q.isLt; omega
    · rfl

/-! ## Host broadcasts along unit axes, the rank kept -/

/-- A `[b, 1]` column broadcast to `[b, c]` reads, at `(q, r)`, the operand at `(q, 0)`. -/
theorem broadcastInDim_b1_bc_apply {b c : ℕ} (h : (⟨2, ![b, 1]⟩ : Shape).BroadcastsInDim ⟨2, ![b, c]⟩ ![0, 1])
    (x : (⟨2, ![b, 1]⟩ : Shape).Idx → α) (q : Fin b) (r : Fin c) :
    broadcastInDim ⟨2, ![b, c]⟩ ![0, 1] h x (ix2 q r) = x (ix2 q (0 : Fin 1)) := by
  refine broadcastInDim_apply _ h x (ix2 q r) (ix2 q (0 : Fin 1)) fun ax => ?_
  match ax with
  | ⟨0, _⟩ =>
    show q.val = if b = 1 then 0 else q.val
    split
    · have := q.isLt; omega
    · rfl
  | ⟨1, _⟩ => rfl

/-- An `[a, b, 1]` array broadcast to `[a, b, c]` reads, at `(p, q, r)`, the operand at `(p, q, 0)`. -/
theorem broadcastInDim_ab1_abc_apply {a b c : ℕ} (h : (⟨3, ![a, b, 1]⟩ : Shape).BroadcastsInDim ⟨3, ![a, b, c]⟩ ![0, 1, 2])
    (x : (⟨3, ![a, b, 1]⟩ : Shape).Idx → α) (p : Fin a) (q : Fin b) (r : Fin c) :
    broadcastInDim ⟨3, ![a, b, c]⟩ ![0, 1, 2] h x (ix3 p q r) = x (ix3 p q (0 : Fin 1)) := by
  refine broadcastInDim_apply _ h x (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A `[1, b, c]` array broadcast to `[a, b, c]` reads, at `(p, q, r)`, the operand's one matrix at `(q, r)`. -/
theorem broadcastInDim_1bc_abc_apply {a b c : ℕ} (h : (⟨3, ![1, b, c]⟩ : Shape).BroadcastsInDim ⟨3, ![a, b, c]⟩ ![0, 1, 2])
    (x : (⟨3, ![1, b, c]⟩ : Shape).Idx → α) (p : Fin a) (q : Fin b) (r : Fin c) :
    broadcastInDim ⟨3, ![a, b, c]⟩ ![0, 1, 2] h x (ix3 p q r) = x (ix3 (0 : Fin 1) q r) := by
  refine broadcastInDim_apply _ h x (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- A `[1, b, 1]` array broadcast to `[a, b, c]` reads, at `(p, q, r)`, the operand's entry for `q`. -/
theorem broadcastInDim_1b1_abc_apply {a b c : ℕ} (h : (⟨3, ![1, b, 1]⟩ : Shape).BroadcastsInDim ⟨3, ![a, b, c]⟩ ![0, 1, 2])
    (x : (⟨3, ![1, b, 1]⟩ : Shape).Idx → α) (p : Fin a) (q : Fin b) (r : Fin c) :
    broadcastInDim ⟨3, ![a, b, c]⟩ ![0, 1, 2] h x (ix3 p q r) = x (ix3 (0 : Fin 1) q (0 : Fin 1)) := by
  refine broadcastInDim_apply _ h x (ix3 p q r) (ix3 (0 : Fin 1) q (0 : Fin 1)) fun ax => ?_
  match ax with
  | ⟨0, _⟩ => rfl
  | ⟨1, _⟩ =>
    show q.val = if b = 1 then 0 else q.val
    split
    · have := q.isLt; omega
    · rfl
  | ⟨2, _⟩ => rfl

end Cert.LibBroadcast3
-- ==== Proof.KPay.lean ====
/-
  What the kernel body stores, entry by entry.

  The body loads a block of 1024 rows of `x` and of the potentials, and the four [6, 64] parameter arrays whole (weights,
  biases, decays, thresholds).  It lifts `x` to [1024, 6, 1] and each parameter to [1, 6, 64], broadcasts all to
  [1024, 6, 64], and computes pointwise.  So the stored value at (row `p`, channel `q`, neuron `r`) is one
  integrate-and-fire step of the entries `x (p, q)`, `W (q, r)`, `b (q, r)`, `β (q, r)`, `θ (q, r)`, `u (p, q, r)`; its two
  comparisons "above threshold" are widened to 32 bits by zeros and read as signed integers, which is the spike indicator.
-/
import proofs.«164599_j77000173683381_1_alg».proof.Proof.Gen.KernelIdeal.Skeleton
import proofs.«164599_j77000173683381_1_alg».proof.Proof.Spikes
import proofs.«164599_j77000173683381_1_alg».proof.Proof.LibBroadcast3
import Idealize.ShloMosaic.Lib.ValueLayout

noncomputable section

namespace Cert.KernelIdeal.Lif

open Cert.KernelIdeal Cert.KernelIdeal.Gen Idealize.ShloMosaic Idealize.ShloMosaic.ValueIdx Cert.Lif Cert.LibBroadcast3

/-- A [6, 64] parameter array, given a leading unit axis and broadcast over the rows, reads its own entry. -/
theorem param_apply (y : FVec Ideal S6x64 .f32) (h1 : S6x64.ShapeCasts S1x6x64) (h2 : S1x6x64.Broadcasts S1024x6x64)
    (p : Fin 1024) (q : Fin 6) (r : Fin 64) :
    broadcastTo S1024x6x64 (shapeCast S1x6x64 y h1) h2 (ix3 p q r) = y (ix2 q r) :=
  (broadcastTo_1bc_abc_apply _ h2 p q r).trans (shapeCast_ab_1ab_apply y h1 (0 : Fin 1) q r)

/-- The block of inputs, given a trailing unit axis and broadcast over the neurons, reads the row's channel entry. -/
theorem input_apply (x : FVec Ideal S1024x6 .f32) (h1 : S1024x6.ShapeCasts S1024x6x1) (h2 : S1024x6x1.Broadcasts S1024x6x64)
    (p : Fin 1024) (q : Fin 6) (r : Fin 64) :
    broadcastTo S1024x6x64 (shapeCast S1024x6x1 x h1) h2 (ix3 p q r) = x (ix2 p q) :=
  (broadcastTo_ab1_abc_apply _ h2 p q r).trans (shapeCast_ab_ab1_apply x h1 p q (0 : Fin 1))

/-- The stored payload at an entry is one step of that neuron, from the loaded blocks' entries. -/
theorem pay_apply (x0 : FVec Ideal S1024x6 .f32) (x1 x2 x3 x4 : FVec Ideal S6x64 .f32) (x5 : FVec Ideal S1024x6x64 .f32)
    (p : Fin 1024) (q : Fin 6) (r : Fin 64) :
    k0_pay1 (F := Ideal) x0 x1 x2 x3 x4 x5 (ix3 p q r)
      = lifStep (x3 (ix2 q r)) (x4 (ix2 q r)) (x0 (ix2 p q)) (x1 (ix2 q r)) (x2 (ix2 q r)) (x5 (ix3 p q r)) := by
  unfold k0_pay1
  simp only [shapeCast_self, sitofp_apply, extui_apply, cmpf_apply, subf_apply, addf_apply, mulf_apply, param_apply, input_apply,
    fire_of_widened]
  rfl

/-- The payload is the block's `spikes`, the decays and thresholds given per entry. -/
theorem pay_eq (x0 : FVec Ideal S1024x6 .f32) (x1 x2 x3 x4 : FVec Ideal S6x64 .f32) (x5 : FVec Ideal S1024x6x64 .f32)
    (i : S1024x6x64.Idx) :
    k0_pay1 (F := Ideal) x0 x1 x2 x3 x4 x5 i
      = lifStep (x3 (ix2 (i 1) (i 2))) (x4 (ix2 (i 1) (i 2))) (x0 (ix2 (i 0) (i 1))) (x1 (ix2 (i 1) (i 2))) (x2 (ix2 (i 1) (i 2))) (x5 i) := by
  obtain ⟨p, q, r, rfl⟩ : ∃ (p : Fin 1024) (q : Fin 6) (r : Fin 64), i = ix3 p q r := ⟨i 0, i 1, i 2, eq_ix3 i⟩
  exact pay_apply x0 x1 x2 x3 x4 x5 p q r

end Cert.KernelIdeal.Lif

end
-- ==== Proof.KValue.lean ====
/-
  What the kernel's program leaves in its result buffer.

  The grid has 256 points; point `t` works on rows `1024 t … 1024 t + 1023` of the batch: it reads that block of `x` and of
  the potentials, the four [6, 64] parameter arrays whole, and writes that block of the output.  Two of the parameter arrays
  are made by the program itself before the launch: the per-channel decay table broadcast along the neurons, and the
  threshold one.  So what point `t` writes back is block `t` of the layer's function of the arguments; the blocks tile
  the batch axis (row `i` belongs to point `i / 1024`), so the whole output array is that function; and the line after
  the launch re-lays it as [batch, channel · neuron].
-/
import proofs.«164599_j77000173683381_1_alg».proof.Proof.Gen.KernelIdeal.Frame
import proofs.«164599_j77000173683381_1_alg».proof.Proof.KPay
import Idealize.ShloMosaic.Lib.Pipeline.Value
import Idealize.ShloMosaic.Lib.StableHlo.Run

set_option maxRecDepth 16384

noncomputable section

namespace Cert.KernelIdeal.Lif

open Cert.KernelIdeal Cert.KernelIdeal.Gen Idealize.ShloMosaic Idealize.ShloMosaic.TcCoe Idealize.ShloMosaic.ValueIdx
open Idealize.SL.Sem Cert.Lif Cert.LibBroadcast3
open Idealize.ShloMosaic.Pipeline (Dat)

variable (m : (ℓ : Loc nD τ sig) → Buf (Elt Ideal) ℓ) (ρ : Dev nD → PrngReg)

/-! ## The two parameter arrays the program makes itself -/

/-- The decay of channel `q`: the value its pattern in the program's table denotes. -/
def betaOf (q : Fin 6) : EReal := Ideal.ofBits .f32 (lit0 (S6.rowMajor (ix1 q)))

/-- The decay array as the launch finds it: the table, made a column, broadcast along the neurons. -/
theorem decay_eq (c : Dev nD) : (V m c main_v1 : S6x64.Idx → EReal)
    = broadcastInDim S6x64 ![0, 1] bcast_S6x1_S6x64_0_1 (broadcastInDim S6x1 ![0] bcast_S6_S6x1_0
        (fun i => FloatOps.ofBits (F := Ideal) .f32 (lit0 (S6.rowMajor i)))) := by
  show StableHlo.after hostOps0 (fun b => m (c, b)) (Proc.devRef .tc main_v1) = _
  after_results <;> rfl

theorem decay_apply (c : Dev nD) (q : Fin 6) (r : Fin 64) : V m c main_v1 (ix2 q r) = betaOf q :=
  (congrFun (decay_eq m c) (ix2 q r)).trans
    ((broadcastInDim_b1_bc_apply _ _ q r).trans (broadcastInDim_b_b1_apply _ _ q (0 : Fin 1)))

/-- The threshold array as the launch finds it: one everywhere. -/
theorem thr_eq (c : Dev nD) : (V m c main_v3 : S6x64.Idx → EReal)
    = broadcastInDim S6x64 ![0, 1] bcast_S6x1_S6x64_0_1 (broadcastInDim S6x1 ![0] bcast_S6_S6x1_0
        (constant (F := Ideal) S6 .f32 0x3F800000#32)) := by
  show StableHlo.after hostOps0 (fun b => m (c, b)) (Proc.devRef .tc main_v3) = _
  after_results <;> rfl

theorem thr_apply (c : Dev nD) (i : S6x64.Idx) : V m c main_v3 i = ((1 : ℝ) : EReal) :=
  (congrFun (thr_eq m c) i).trans thr_one

/-! ## Where a block's entries sit in its array -/

theorem hz2 : (![0, 0] : Fin 2 → Nat) = fun _ => 0 := funext fun a => by fin_cases a <;> rfl
theorem hz3 : (![0, 0, 0] : Fin 3 → Nat) = fun _ => 0 := funext fun a => by fin_cases a <;> rfl

/-- The block indices at a point, decided over the grid: the batch axis follows the point, every other axis stays at 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0
    ∧ win0_6.index t (0 : Fin 3) = t.val ∧ win0_6.index t (1 : Fin 3) = 0 ∧ win0_6.index t (2 : Fin 3) = 0 :=
  (by decide +kernel : ∀ t : Fin grid0.N, _)

theorem point_lt (t : Fin cfg0.N) : t.val < 256 := Nat.lt_of_lt_of_eq t.isLt N_0

/-- Row `p` of point `t`'s block is row `1024 t + p` of the batch. -/
def row (t : Fin cfg0.N) (p : Fin 1024) : Fin 262144 := ⟨t.val * 1024 + p.val, by have := point_lt t; have := p.isLt; omega⟩

theorem emb_x (t : Fin cfg0.N) (p : Fin 1024) (q : Fin 6) : ((cfg0.win 0).blk t).view.emb (ix2 p q) = ix2 (row t p) q := by
  obtain ⟨e00, e01, -⟩ := idx_facts t
  funext a; apply Fin.ext
  match a with
  | ⟨0, _⟩ => show win0_0.index t (0 : Fin 2) * 1024 + 1 * p.val = t.val * 1024 + p.val; omega
  | ⟨1, _⟩ => show win0_0.index t (1 : Fin 2) * 6 + 1 * q.val = q.val; omega

theorem emb_w (t : Fin cfg0.N) (q : Fin 6) (r : Fin 64) : ((cfg0.win 1).blk t).view.emb (ix2 q r) = ix2 q r := by
  obtain ⟨-, -, e10, e11, -⟩ := idx_facts t
  funext a; apply Fin.ext
  match a with
  | ⟨0, _⟩ => show win0_1.index t (0 : Fin 2) * 6 + 1 * q.val = q.val; omega
  | ⟨1, _⟩ => show win0_1.index t (1 : Fin 2) * 64 + 1 * r.val = r.val; omega

theorem emb_b (t : Fin cfg0.N) (q : Fin 6) (r : Fin 64) : ((cfg0.win 2).blk t).view.emb (ix2 q r) = ix2 q r := by
  obtain ⟨-, -, -, -, e20, e21, -⟩ := idx_facts t
  funext a; apply Fin.ext
  match a with
  | ⟨0, _⟩ => show win0_2.index t (0 : Fin 2) * 6 + 1 * q.val = q.val; omega
  | ⟨1, _⟩ => show win0_2.index t (1 : Fin 2) * 64 + 1 * r.val = r.val; omega

theorem emb_decay (t : Fin cfg0.N) (q : Fin 6) (r : Fin 64) : ((cfg0.win 3).blk t).view.emb (ix2 q r) = ix2 q r := by
  obtain ⟨-, -, -, -, -, -, e30, e31, -⟩ := idx_facts t
  funext a; apply Fin.ext
  match a with
  | ⟨0, _⟩ => show win0_3.index t (0 : Fin 2) * 6 + 1 * q.val = q.val; omega
  | ⟨1, _⟩ => show win0_3.index t (1 : Fin 2) * 64 + 1 * r.val = r.val; omega

theorem emb_thr (t : Fin cfg0.N) (q : Fin 6) (r : Fin 64) : ((cfg0.win 4).blk t).view.emb (ix2 q r) = ix2 q r := by
  obtain ⟨-, -, -, -, -, -, -, -, e40, e41, -⟩ := idx_facts t
  funext a; apply Fin.ext
  match a with
  | ⟨0, _⟩ => show win0_4.index t (0 : Fin 2) * 6 + 1 * q.val = q.val; omega
  | ⟨1, _⟩ => show win0_4.index t (1 : Fin 2) * 64 + 1 * r.val = r.val; omega

theorem emb_u (t : Fin cfg0.N) (p : Fin 1024) (q : Fin 6) (r : Fin 64) :
    ((cfg0.win 5).blk t).view.emb (ix3 p q r) = ix3 (row t p) q r := by
  obtain ⟨-, -, -, -, -, -, -, -, -, -, e50, e51, e52, -⟩ := idx_facts t
  funext a; apply Fin.ext
  match a with
  | ⟨0, _⟩ => show win0_5.index t (0 : Fin 3) * 1024 + 1 * p.val = t.val * 1024 + p.val; omega
  | ⟨1, _⟩ => show win0_5.index t (1 : Fin 3) * 6 + 1 * q.val = q.val; omega
  | ⟨2, _⟩ => show win0_5.index t (2 : Fin 3) * 64 + 1 * r.val = r.val; omega

theorem emb_out (t : Fin cfg0.N) (p : Fin 1024) (q : Fin 6) (r : Fin 64) :
    ((cfg0.win 6).blk t).view.emb (ix3 p q r) = ix3 (row t p) q r := by
  obtain ⟨-, -, -, -, -, -, -, -, -, -, -, -, -, e60, e61, e62⟩ := idx_facts t
  funext a; apply Fin.ext
  match a with
  | ⟨0, _⟩ => show win0_6.index t (0 : Fin 3) * 1024 + 1 * p.val = t.val * 1024 + p.val; omega
  | ⟨1, _⟩ => show win0_6.index t (1 : Fin 3) * 6 + 1 * q.val = q.val; omega
  | ⟨2, _⟩ => show win0_6.index t (2 : Fin 3) * 64 + 1 * r.val = r.val; omega

/-! ## The blocks a point reads -/

theorem read_x (c : Dev nD) (t : Fin cfg0.N) (p : Fin 1024) (q : Fin 6) :
    iblk m c 0 t (ix2 p q) = m ((c : Thread nD τ).loc main_arg0) (ix2 (row t p) q) := by
  show V m c main_arg0 (((cfg0.win 0).blk t).view.emb (ix2 p q)) = _
  rw [emb_x, V_main_arg0]

theorem read_w (c : Dev nD) (t : Fin cfg0.N) (q : Fin 6) (r : Fin 64) :
    iblk m c 1 t (ix2 q r) = m ((c : Thread nD τ).loc main_arg1) (ix2 q r) := by
  show V m c main_arg1 (((cfg0.win 1).blk t).view.emb (ix2 q r)) = _
  rw [emb_w, V_main_arg1]

theorem read_b (c : Dev nD) (t : Fin cfg0.N) (q : Fin 6) (r : Fin 64) :
    iblk m c 2 t (ix2 q r) = m ((c : Thread nD τ).loc main_arg2) (ix2 q r) := by
  show V m c main_arg2 (((cfg0.win 2).blk t).view.emb (ix2 q r)) = _
  rw [emb_b, V_main_arg2]

theorem read_decay (c : Dev nD) (t : Fin cfg0.N) (q : Fin 6) (r : Fin 64) : iblk m c 3 t (ix2 q r) = betaOf q := by
  show V m c main_v1 (((cfg0.win 3).blk t).view.emb (ix2 q r)) = _
  rw [emb_decay, decay_apply]

theorem read_thr (c : Dev nD) (t : Fin cfg0.N) (q : Fin 6) (r : Fin 64) : iblk m c 4 t (ix2 q r) = ((1 : ℝ) : EReal) := by
  show V m c main_v3 (((cfg0.win 4).blk t).view.emb (ix2 q r)) = _
  rw [emb_thr, thr_apply]

theorem read_u (c : Dev nD) (t : Fin cfg0.N) (p : Fin 1024) (q : Fin 6) (r : Fin 64) :
    iblk m c 5 t (ix3 p q r) = m ((c : Thread nD τ).loc main_arg3) (ix3 (row t p) q r) := by
  show V m c main_arg3 (((cfg0.win 5).blk t).view.emb (ix3 p q r)) = _
  rw [emb_u, V_main_arg3]

/-! ## What a point writes back, and the whole array -/

/-- The layer's output on core `c`: the spikes of the argument arrays as launched. -/
abbrev layer (c : Dev nD) : S262144x6x64.Idx → EReal :=
  spikes (n := 262144) betaOf ((1 : ℝ) : EReal) (m ((c : Thread nD τ).loc main_arg0)) (m ((c : Thread nD τ).loc main_arg1)) (m ((c : Thread nD τ).loc main_arg2)) (m ((c : Thread nD τ).loc main_arg3))

/-- The payload as a function of the entry, over the loaded blocks. -/
theorem pay_fn (x0 : Vec Ideal S1024x6 .f32) (x1 x2 x3 x4 : Vec Ideal S6x64 .f32) (x5 : Vec Ideal S1024x6x64 .f32) :
    k0_pay1 (F := Ideal) x0 x1 x2 x3 x4 x5
      = fun i => lifStep (x3 (ix2 (i 1) (i 2))) (x4 (ix2 (i 1) (i 2))) (x0 (ix2 (i 0) (i 1))) (x1 (ix2 (i 1) (i 2))) (x2 (ix2 (i 1) (i 2))) (x5 i) :=
  funext fun i => pay_eq x0 x1 x2 x3 x4 x5 i

/-- What point `t` writes back is block `t` of the layer's output. -/
theorem flushed_eq (c : Dev nD) (t : Fin cfg0.N) :
    (dats m 0 c).flushed 6 t = ((cfg0.win 6).blk t).view.read (Elt Ideal) (layer m c) := by
  show (cfg0.win 6).cut (grid0.coords t) ((dats m 0 c).after 6 t) = _
  rw [after0_6]
  unfold out0_6
  rw [View.canon_unit_zero hz3]
  simp only [View.ld_unit_zero (S := S1024x6) hz2, View.ld_unit_zero (S := S6x64) hz2, View.ld_unit_zero (S := S1024x6x64) hz3]
  rw [pay_fn]
  funext j
  obtain ⟨p, q, r, rfl⟩ : ∃ (p : Fin 1024) (q : Fin 6) (r : Fin 64), j = ix3 p q r := ⟨j 0, j 1, j 2, eq_ix3 j⟩
  show lifStep (iblk m c 3 t (ix2 q r)) (iblk m c 4 t (ix2 q r)) (iblk m c 0 t (ix2 p q)) (iblk m c 1 t (ix2 q r)) (iblk m c 2 t (ix2 q r)) (iblk m c 5 t (ix3 p q r))
    = layer m c (((cfg0.win 6).blk t).view.emb (ix3 p q r))
  rw [emb_out, read_x, read_w, read_b, read_decay, read_thr, read_u]
  rfl

/-- An index of the output array is in point `t`'s block iff each coordinate is in the block's range on its axis. -/
theorem mem_blk (t : Fin cfg0.N) (i : S262144x6x64.Idx) :
    i ∈ ((cfg0.win 6).blk t).view.set ↔ ∀ a : Fin 3, win0_6.index t a * S1024x6x64.size a ≤ (i a).val ∧ (i a).val < win0_6.index t a * S1024x6x64.size a + S1024x6x64.size a := by
  show i ∈ ((View.whole main_v4).slice (win0_6.rect t)).set ↔ _
  rw [View.set_slice_whole, Rect.mem_set_unit]
  exact Iff.rfl

/-- Every entry of the output is written back by the point its row belongs to. -/
theorem covered (i : S262144x6x64.Idx) :
    ∃ t : Fin cfg0.N, (cfg0.win 6).flush t = true ∧ i ∈ ((cfg0.win 6).blk t).view.set := by
  have hi0 : (i 0).val < 262144 := (i 0).isLt
  have hi1 : (i 1).val < 6 := (i 1).isLt
  have hi2 : (i 2).val < 64 := (i 2).isLt
  have hN : (i 0).val / 1024 < cfg0.N := Nat.lt_of_lt_of_eq (by omega : (i 0).val / 1024 < 256) N_0.symm
  obtain ⟨-, -, -, -, -, -, -, -, -, -, -, -, -, e60, e61, e62⟩ := idx_facts ⟨(i 0).val / 1024, hN⟩
  refine ⟨⟨(i 0).val / 1024, hN⟩, flush0_6 _, ?_⟩
  rw [mem_blk]
  intro a
  match a with
  | ⟨0, _⟩ =>
    show win0_6.index ⟨(i 0).val / 1024, hN⟩ (0 : Fin 3) * 1024 ≤ (i 0).val ∧ (i 0).val < win0_6.index ⟨(i 0).val / 1024, hN⟩ (0 : Fin 3) * 1024 + 1024
    have e : win0_6.index ⟨(i 0).val / 1024, hN⟩ (0 : Fin 3) = (i 0).val / 1024 := e60
    omega
  | ⟨1, _⟩ =>
    show win0_6.index ⟨(i 0).val / 1024, hN⟩ (1 : Fin 3) * 6 ≤ (i 1).val ∧ (i 1).val < win0_6.index ⟨(i 0).val / 1024, hN⟩ (1 : Fin 3) * 6 + 6
    omega
  | ⟨2, _⟩ =>
    show win0_6.index ⟨(i 0).val / 1024, hN⟩ (2 : Fin 3) * 64 ≤ (i 2).val ∧ (i 2).val < win0_6.index ⟨(i 0).val / 1024, hN⟩ (2 : Fin 3) * 64 + 64
    omega

/-- The output array after the launch is the layer's output. -/
theorem final (c : Dev nD) : (dats m 0 c).arrAt 6 cfg0.N = layer m c :=
  (dats m 0 c).arrAt_eq_of_cover 6 (layer m c) (fun t _ => flushed_eq m c t) covered

end Cert.KernelIdeal.Lif

end
-- ==== Proof.KRun.lean ====
/-
  The kernel's program, run: its result buffer ends at the layer's output, re-laid as [batch, channel · neuron].

  After the launch the output array holds the layer's function of the arguments (the blocks written back tile it); the one
  line after the launch copies it, in row-major order, into the result's shape; and no argument array is written.
-/
import proofs.«164599_j77000173683381_1_alg».proof.Proof.KValue

set_option maxRecDepth 16384

noncomputable section

namespace Cert.KernelIdeal.Lif

open Cert.KernelIdeal Cert.KernelIdeal.Gen Idealize.ShloMosaic Idealize.ShloMosaic.TcCoe Idealize.ShloMosaic.ValueIdx
open Idealize.SL.Sem Cert.Lif
open Idealize.ShloMosaic.Pipeline (Dat)

variable (m : (ℓ : Loc nD τ sig) → Buf (Elt Ideal) ℓ) (ρ : Dev nD → PrngReg)

/-- The result buffer after the line that follows the launch: the output array's contents under the result's shape. -/
theorem tail_eq (c : Dev nD) :
    Pipeline.afterTail₀ cfgs (dats m) 0 (V0 m) [hostOps1] c main_v5
      = shapeCast _ (layer m c) shapeCasts_S262144x6x64_S262144x384 := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v4)
      = layer m c :=
    (Pipeline.withArrays_arr spec0 launch0.win.arr_inj c _ _ 6).trans (final m c)
  rw [e]
  rfl

/-- The result buffer is no window's array and is not scoped: the launch leaves it to the lines around it. -/
theorem out_mem : main_v5 ∈ Pipeline.restRefs sig (cfgs 0).spec := Pipeline.mem_restRefs_of main_v5 rfl (by decide)

/-- Every weakly fair execution of the kernel's program terminates with the result at the layer's output, re-laid,
    and the four arguments as launched. -/
theorem run : θ_run defs (onTc (τ := τ) (main (F := Ideal))) ⟨m, fun _ => 0, ρ⟩ fun r => ∀ c : Dev nD,
      r.2.mem ((c.tc : Thread nD τ).loc main_v5) = shapeCast _ (layer m c) shapeCasts_S262144x6x64_S262144x384
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).2 main_v5 out_mem).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 5).trans (((dats m 0 c).arrAt_in 5 rfl _).trans ((A_eq m c 5).trans (V_main_arg3 m c)))⟩) (run_main m ρ)

end Cert.KernelIdeal.Lif

end
-- ==== Proof.RefRun.lean ====
/-
  The reference program's run, read back: its 31 host operations in order, and the fact that every weakly fair
  execution ends with the result buffer at the operations' composed term of the four argument arrays, the arguments
  unchanged.  The composed term is spelled through a few named stages: the input current `x · W + b` broadcast over the
  neurons, the threshold and the per-channel decay broadcast to the full shape, the reset indicator of the previous
  potential, the updated potential, and the output spikes, finally re-laid as [batch, channel · neuron].
-/
import proofs.«164599_j77000173683381_1_alg».proof.Proof.Gen.ReferenceIdeal
import Idealize.ShloMosaic.Lib.StableHlo.Run

noncomputable section

namespace Cert.ReferenceIdeal.Lif

open Cert.ReferenceIdeal Cert.ReferenceIdeal.Gen Idealize.ShloMosaic Idealize.ShloMosaic.TcCoe Idealize.SL.Sem Idealize.ShloMosaic.StableHlo

variable {F : FTy → Type} [FloatOps F]

/-- The reference's operations, in order. -/
abbrev ops : List (HloOp τ sig (Elt F)) :=
  [ nullary main_cst (constant S6 .f32 0x3F800000#32),
    nullary main_cst_0 (fun i => FloatOps.ofBits .f32 (lit0 (S6.rowMajor i))),
    unary main_arg0 main_v0 (broadcastInDim S262144x6x1 ![0, 1] bcast_S262144x6_S262144x6x1_0_1 : (⟨S262144x6, .f32⟩ : BufTy).Contents (Elt F) → (⟨S262144x6x1, .f32⟩ : BufTy).Contents (Elt F)),
    unary main_arg1 main_v1 (broadcastInDim S1x6x64 ![1, 2] bcast_S6x64_S1x6x64_1_2 : (⟨S6x64, .f32⟩ : BufTy).Contents (Elt F) → (⟨S1x6x64, .f32⟩ : BufTy).Contents (Elt F)),
    unary main_v0 main_v2 (broadcastInDim S262144x6x64 ![0, 1, 2] bcast_S262144x6x1_S262144x6x64_0_1_2 : (⟨S262144x6x1, .f32⟩ : BufTy).Contents (Elt F) → (⟨S262144x6x64, .f32⟩ : BufTy).Contents (Elt F)),
    unary main_v1 main_v3 (broadcastInDim S262144x6x64 ![0, 1, 2] bcast_S1x6x64_S262144x6x64_0_1_2 : (⟨S1x6x64, .f32⟩ : BufTy).Contents (Elt F) → (⟨S262144x6x64, .f32⟩ : BufTy).Contents (Elt F)),
    binary main_v2 main_v3 main_v4 (mulf : (⟨S262144x6x64, .f32⟩ : BufTy).Contents (Elt F) → (⟨S262144x6x64, .f32⟩ : BufTy).Contents (Elt F) → (⟨S262144x6x64, .f32⟩ : BufTy).Contents (Elt F)),
    unary main_arg2 main_v5 (broadcastInDim S1x6x64 ![1, 2] bcast_S6x64_S1x6x64_1_2 : (⟨S6x64, .f32⟩ : BufTy).Contents (Elt F) → (⟨S1x6x64, .f32⟩ : BufTy).Contents (Elt F)),
    unary main_v5 main_v6 (broadcastInDim S262144x6x64 ![0, 1, 2] bcast_S1x6x64_S262144x6x64_0_1_2 : (⟨S1x6x64, .f32⟩ : BufTy).Contents (Elt F) → (⟨S262144x6x64, .f32⟩ : BufTy).Contents (Elt F)),
    binary main_v4 main_v6 main_v7 (addf : (⟨S262144x6x64, .f32⟩ : BufTy).Contents (Elt F) → (⟨S262144x6x64, .f32⟩ : BufTy).Contents (Elt F) → (⟨S262144x6x64, .f32⟩ : BufTy).Contents (Elt F)),
    unary main_cst main_v8 (broadcastInDim S1x6x1 ![1] bcast_S6_S1x6x1_1 : (⟨S6, .f32⟩ : BufTy).Contents (Elt F) → (⟨S1x6x1, .f32⟩ : BufTy).Contents (Elt F)),
    unary main_cst_0 main_v9 (broadcastInDim S1x6x1 ![1] bcast_S6_S1x6x1_1 : (⟨S6, .f32⟩ : BufTy).Contents (Elt F) → (⟨S1x6x1, .f32⟩ : BufTy).Contents (Elt F)),
    unary main_v8 main_v10 (broadcastInDim S262144x6x64 ![0, 1, 2] bcast_S1x6x1_S262144x6x64_0_1_2 : (⟨S1x6x1, .f32⟩ : BufTy).Contents (Elt F) → (⟨S262144x6x64, .f32⟩ : BufTy).Contents (Elt F)),
    binary main_arg3 main_v10 main_v11 (subf : (⟨S262144x6x64, .f32⟩ : BufTy).Contents (Elt F) → (⟨S262144x6x64, .f32⟩ : BufTy).Contents (Elt F) → (⟨S262144x6x64, .f32⟩ : BufTy).Contents (Elt F)),
    nullary main_cst_1 (constant S_ .f32 0x00000000#32),
    unary main_cst_1 main_v12 (broadcastInDim S262144x6x64 ![] bcast_S_S262144x6x64 : (⟨S_, .f32⟩ : BufTy).Contents (Elt F) → (⟨S262144x6x64, .f32⟩ : BufTy).Contents (Elt F)),
    binary main_v11 main_v12 main_v13 (cmpf .ogt : (⟨S262144x6x64, .f32⟩ : BufTy).Contents (Elt F) → (⟨S262144x6x64, .f32⟩ : BufTy).Contents (Elt F) → (⟨S262144x6x64, .i1⟩ : BufTy).Contents (Elt F)),
    unary main_v13 main_v14 (uitofp .f32 : (⟨S262144x6x64, .i1⟩ : BufTy).Contents (Elt F) → (⟨S262144x6x64, .f32⟩ : BufTy).Contents (Elt F)),
    unary main_v9 main_v15 (broadcastInDim S262144x6x64 ![0, 1, 2] bcast_S1x6x1_S262144x6x64_0_1_2 : (⟨S1x6x1, .f32⟩ : BufTy).Contents (Elt F) → (⟨S262144x6x64, .f32⟩ : BufTy).Contents (Elt F)),
    binary main_v15 main_arg3 main_v16 (mulf : (⟨S262144x6x64, .f32⟩ : BufTy).Contents (Elt F) → (⟨S262144x6x64, .f32⟩ : BufTy).Contents (Elt F) → (⟨S262144x6x64, .f32⟩ : BufTy).Contents (Elt F)),
    binary main_v16 main_v7 main_v17 (addf : (⟨S262144x6x64, .f32⟩ : BufTy).Contents (Elt F) → (⟨S262144x6x64, .f32⟩ : BufTy).Contents (Elt F) → (⟨S262144x6x64, .f32⟩ : BufTy).Contents (Elt F)),
    unary main_v8 main_v18 (broadcastInDim S262144x6x64 ![0, 1, 2] bcast_S1x6x1_S262144x6x64_0_1_2 : (⟨S1x6x1, .f32⟩ : BufTy).Contents (Elt F) → (⟨S262144x6x64, .f32⟩ : BufTy).Contents (Elt F)),
    binary main_v14 main_v18 main_v19 (mulf : (⟨S262144x6x64, .f32⟩ : BufTy).Contents (Elt F) → (⟨S262144x6x64, .f32⟩ : BufTy).Contents (Elt F) → (⟨S262144x6x64, .f32⟩ : BufTy).Contents (Elt F)),
    binary main_v17 main_v19 main_v20 (subf : (⟨S262144x6x64, .f32⟩ : BufTy).Contents (Elt F) → (⟨S262144x6x64, .f32⟩ : BufTy).Contents (Elt F) → (⟨S262144x6x64, .f32⟩ : BufTy).Contents (Elt F)),
    unary main_v8 main_v21 (broadcastInDim S262144x6x64 ![0, 1, 2] bcast_S1x6x1_S262144x6x64_0_1_2 : (⟨S1x6x1, .f32⟩ : BufTy).Contents (Elt F) → (⟨S262144x6x64, .f32⟩ : BufTy).Contents (Elt F)),
    binary main_v20 main_v21 main_v22 (subf : (⟨S262144x6x64, .f32⟩ : BufTy).Contents (Elt F) → (⟨S262144x6x64, .f32⟩ : BufTy).Contents (Elt F) → (⟨S262144x6x64, .f32⟩ : BufTy).Contents (Elt F)),
    nullary main_cst_2 (constant S_ .f32 0x00000000#32),
    unary main_cst_2 main_v23 (broadcastInDim S262144x6x64 ![] bcast_S_S262144x6x64 : (⟨S_, .f32⟩ : BufTy).Contents (Elt F) → (⟨S262144x6x64, .f32⟩ : BufTy).Contents (Elt F)),
    binary main_v22 main_v23 main_v24 (cmpf .ogt : (⟨S262144x6x64, .f32⟩ : BufTy).Contents (Elt F) → (⟨S262144x6x64, .f32⟩ : BufTy).Contents (Elt F) → (⟨S262144x6x64, .i1⟩ : BufTy).Contents (Elt F)),
    unary main_v24 main_v25 (uitofp .f32 : (⟨S262144x6x64, .i1⟩ : BufTy).Contents (Elt F) → (⟨S262144x6x64, .f32⟩ : BufTy).Contents (Elt F)),
    reshape main_v25 main_v26 rfl shapeCasts_S262144x6x64_S262144x384 ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., unary_bufs_sub .., unary_bufs_sub .., unary_bufs_sub .., unary_bufs_sub .., binary_bufs_sub .., unary_bufs_sub .., unary_bufs_sub .., binary_bufs_sub .., unary_bufs_sub .., unary_bufs_sub .., unary_bufs_sub .., binary_bufs_sub .., nullary_bufs_sub .., unary_bufs_sub .., binary_bufs_sub .., unary_bufs_sub .., unary_bufs_sub .., binary_bufs_sub .., binary_bufs_sub .., unary_bufs_sub .., binary_bufs_sub .., binary_bufs_sub .., unary_bufs_sub .., binary_bufs_sub .., nullary_bufs_sub .., unary_bufs_sub .., binary_bufs_sub .., unary_bufs_sub .., reshape_bufs_sub ..⟩

/-- The threshold, one per channel, broadcast over batch and neurons. -/
abbrev thrB : FVec F S262144x6x64 .f32 :=
  broadcastInDim S262144x6x64 ![0, 1, 2] bcast_S1x6x1_S262144x6x64_0_1_2 (broadcastInDim S1x6x1 ![1] bcast_S6_S1x6x1_1 (constant S6 .f32 0x3F800000#32))
/-- The decay, one per channel, broadcast over batch and neurons. -/
abbrev betaB : FVec F S262144x6x64 .f32 :=
  broadcastInDim S262144x6x64 ![0, 1, 2] bcast_S1x6x1_S262144x6x64_0_1_2 (broadcastInDim S1x6x1 ![1] bcast_S6_S1x6x1_1 (fun i => FloatOps.ofBits .f32 (lit0 (S6.rowMajor i))))
/-- Zero at every index. -/
abbrev zeroB : FVec F S262144x6x64 .f32 := broadcastInDim S262144x6x64 ![] bcast_S_S262144x6x64 (constant S_ .f32 0x00000000#32)
/-- The input current `x · W + b`, each factor broadcast to [batch, channel, neuron]. -/
abbrev cur (x : FVec F S262144x6 .f32) (w b : FVec F S6x64 .f32) : FVec F S262144x6x64 .f32 :=
  addf (mulf (broadcastInDim S262144x6x64 ![0, 1, 2] bcast_S262144x6x1_S262144x6x64_0_1_2 (broadcastInDim S262144x6x1 ![0, 1] bcast_S262144x6_S262144x6x1_0_1 x))
      (broadcastInDim S262144x6x64 ![0, 1, 2] bcast_S1x6x64_S262144x6x64_0_1_2 (broadcastInDim S1x6x64 ![1, 2] bcast_S6x64_S1x6x64_1_2 w)))
    (broadcastInDim S262144x6x64 ![0, 1, 2] bcast_S1x6x64_S262144x6x64_0_1_2 (broadcastInDim S1x6x64 ![1, 2] bcast_S6x64_S1x6x64_1_2 b))
/-- The reset indicator: whether the previous potential less the threshold is positive. -/
abbrev reset (u : FVec F S262144x6x64 .f32) : FVec F S262144x6x64 .f32 := uitofp .f32 (cmpf .ogt (subf u thrB) zeroB)
/-- The updated potential. -/
abbrev memNew (x : FVec F S262144x6 .f32) (w b : FVec F S6x64 .f32) (u : FVec F S262144x6x64 .f32) : FVec F S262144x6x64 .f32 :=
  subf (addf (mulf betaB u) (cur x w b)) (mulf (reset u) thrB)
/-- The output spikes: whether the updated potential less the threshold is positive. -/
abbrev spk (x : FVec F S262144x6 .f32) (w b : FVec F S6x64 .f32) (u : FVec F S262144x6x64 .f32) : FVec F S262144x6x64 .f32 :=
  uitofp .f32 (cmpf .ogt (subf (memNew x w b u) thrB) zeroB)

/-- On every device, from any memory with zero counters: every weakly fair execution of the reference terminates with
    its result at the spikes of the argument arrays, re-laid, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v26) = shapeCast _ (spk (m ((c.tc : Thread nD τ).loc main_arg0)) (m ((c.tc : Thread nD τ).loc main_arg1)) (m ((c.tc : Thread nD τ).loc main_arg2)) (m ((c.tc : Thread nD τ).loc main_arg3))) shapeCasts_S262144x6x64_S262144x384
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v26).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.ReferenceIdeal.Lif

end
-- ==== Proof.RefValue.lean ====
/-
  The reference's spikes are the layer's function of its arguments.

  Read at row `p`, channel `q`, neuron `r`: the broadcast threshold is the real number one, the broadcast decay is the
  channel's table entry, the input current is `x (p, q) · W (q, r) + b (q, r)`, and each of the reference's two tests
  "potential less threshold is positive" is the spike indicator of that potential, the threshold being real.
-/
import proofs.«164599_j77000173683381_1_alg».proof.Proof.RefRun
import proofs.«164599_j77000173683381_1_alg».proof.Proof.Spikes
import proofs.«164599_j77000173683381_1_alg».proof.Proof.LibBroadcast3

noncomputable section

namespace Cert.ReferenceIdeal.Lif

open Cert.ReferenceIdeal Cert.ReferenceIdeal.Gen Idealize.ShloMosaic Idealize.ShloMosaic.ValueIdx Cert.Lif Cert.LibBroadcast3

/-- The decay of channel `q`: the value its pattern in the reference's table denotes. -/
def betaOf (q : Fin 6) : EReal := Ideal.ofBits .f32 (lit0 (S6.rowMajor (ix1 q)))

theorem thrB_apply (i : S262144x6x64.Idx) : thrB (F := Ideal) i = ((1 : ℝ) : EReal) := thr_one

theorem zeroB_apply (i : S262144x6x64.Idx) : zeroB (F := Ideal) i = Ideal.ofBits .f32 0x00000000#32 := rfl

theorem betaB_apply (p : Fin 262144) (q : Fin 6) (r : Fin 64) : betaB (F := Ideal) (ix3 p q r) = betaOf q := by
  refine (broadcastInDim_1b1_abc_apply _ _ p q r).trans ?_
  exact broadcastInDim_b_1b1_apply _ _ (0 : Fin 1) q (0 : Fin 1)

theorem cur_apply (x : FVec Ideal S262144x6 .f32) (w b : FVec Ideal S6x64 .f32) (p : Fin 262144) (q : Fin 6) (r : Fin 64) :
    cur x w b (ix3 p q r) = x (ix2 p q) * w (ix2 q r) + b (ix2 q r) := by
  show broadcastInDim S262144x6x64 ![0, 1, 2] bcast_S262144x6x1_S262144x6x64_0_1_2 (broadcastInDim S262144x6x1 ![0, 1] bcast_S262144x6_S262144x6x1_0_1 x) (ix3 p q r)
      * broadcastInDim S262144x6x64 ![0, 1, 2] bcast_S1x6x64_S262144x6x64_0_1_2 (broadcastInDim S1x6x64 ![1, 2] bcast_S6x64_S1x6x64_1_2 w) (ix3 p q r)
      + broadcastInDim S262144x6x64 ![0, 1, 2] bcast_S1x6x64_S262144x6x64_0_1_2 (broadcastInDim S1x6x64 ![1, 2] bcast_S6x64_S1x6x64_1_2 b) (ix3 p q r) = _
  have hx : broadcastInDim S262144x6x64 ![0, 1, 2] bcast_S262144x6x1_S262144x6x64_0_1_2 (broadcastInDim S262144x6x1 ![0, 1] bcast_S262144x6_S262144x6x1_0_1 x) (ix3 p q r) = x (ix2 p q) :=
    (broadcastInDim_ab1_abc_apply _ _ p q r).trans (broadcastInDim_ab_ab1_apply _ x p q (0 : Fin 1))
  have hm : ∀ y : FVec Ideal S6x64 .f32, broadcastInDim S262144x6x64 ![0, 1, 2] bcast_S1x6x64_S262144x6x64_0_1_2 (broadcastInDim S1x6x64 ![1, 2] bcast_S6x64_S1x6x64_1_2 y) (ix3 p q r) = y (ix2 q r) :=
    fun y => (broadcastInDim_1bc_abc_apply _ _ p q r).trans (broadcastInDim_bc_1bc_apply _ y (0 : Fin 1) q r)
  rw [hx, hm w, hm b]

theorem reset_apply (u : FVec Ideal S262144x6x64 .f32) (i : S262144x6x64.Idx) : reset u i = fire ((1 : ℝ) : EReal) (u i) := by
  show FloatOps.uitofp (F := Ideal) .f32 (FloatOps.cmpf (F := Ideal) (φ := .f32) .ogt (u i - thrB (F := Ideal) i) (zeroB (F := Ideal) i)) = _
  rw [thrB_apply, zeroB_apply, fire_of_difference]

/-- The reference's spike array is `spikes` of the arguments, with the table's decays and threshold one. -/
theorem spk_eq (x : FVec Ideal S262144x6 .f32) (w b : FVec Ideal S6x64 .f32) (u : FVec Ideal S262144x6x64 .f32) :
    spk x w b u = spikes betaOf ((1 : ℝ) : EReal) x w b u := by
  funext i
  obtain ⟨p, q, r, rfl⟩ : ∃ (p : Fin 262144) (q : Fin 6) (r : Fin 64), i = ix3 p q r := ⟨i 0, i 1, i 2, eq_ix3 i⟩
  rw [spikes_apply]
  show FloatOps.uitofp (F := Ideal) .f32 (FloatOps.cmpf (F := Ideal) (φ := .f32) .ogt
    (memNew x w b u (ix3 p q r) - thrB (F := Ideal) (ix3 p q r)) (zeroB (F := Ideal) (ix3 p q r))) = _
  rw [thrB_apply, zeroB_apply, fire_of_difference]
  unfold lifStep
  congr 1
  show (betaB (F := Ideal) (ix3 p q r) * u (ix3 p q r) + cur x w b (ix3 p q r)) - reset u (ix3 p q r) * thrB (F := Ideal) (ix3 p q r) = _
  rw [betaB_apply, cur_apply, reset_apply, thrB_apply]

end Cert.ReferenceIdeal.Lif

end
-- ==== Proof.lean ====
/-
  One step of a layer of leaky integrate-and-fire neurons, 262144 rows by 6 channels by 64 neurons: the kernel against the
  plain array program.

  Both compute, for row `p`, channel `q`, neuron `r`, the input current `x (p, q) · W (q, r) + b (q, r)`, the updated
  potential `β q · u + current - s(u) · θ` from the previous potential `u (p, q, r)` (its own spike `s(u)` takes one
  threshold off), and the spike `s` of the updated potential; the threshold `θ` is one and the decays `β` are the same six
  patterns in both programs.  They differ in two spellings only.  The kernel tests `θ < a` and reads the bit, widened by
  zeros, as a signed integer; the array program tests `0 < a - θ` and reads the bit unsigned.  A real threshold moves
  neither infinity, so the two tests agree on every extended real, and both readings of the bit are 0 or 1.  Nothing is
  summed and no law of arithmetic that fails at an infinity is used: the inputs' finiteness is never opened.

  The kernel's side: what each of the 256 grid points writes back is a block of 1024 rows of that function, the blocks tile
  the batch, and the line after the launch re-lays the array as [batch, channel · neuron].  The array program's side: its 31
  operations composed, read entry by entry.  Both results are the same re-laying of the same array.
-/
import proofs.«164599_j77000173683381_1_alg».proof.Defs
import proofs.«164599_j77000173683381_1_alg».proof.Proof.Gen.Kernel
import proofs.«164599_j77000173683381_1_alg».proof.Proof.Gen.Kernel.Frame
import proofs.«164599_j77000173683381_1_alg».proof.Proof.Gen.KernelIdeal
import proofs.«164599_j77000173683381_1_alg».proof.Proof.Gen.KernelIdeal.Frame
import proofs.«164599_j77000173683381_1_alg».proof.Proof.Gen.ReferenceIdeal
import proofs.«164599_j77000173683381_1_alg».proof.Proof.Gen.Pre_finite_inputs
import proofs.«164599_j77000173683381_1_alg».proof.Proof.KRun
import proofs.«164599_j77000173683381_1_alg».proof.Proof.RefValue

noncomputable section

namespace Cert.Proof

open Idealize.ShloMosaic Idealize.SL.Sem

/-- The word-level kernel runs and keeps its arguments. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The array program runs and keeps its arguments: its run with the result dropped. -/
theorem frame_ri : Cert.frame_ReferenceIdeal := fun m ρ _ =>
  (θ_run Cert.ReferenceIdeal.defs _ _).mono (fun _ h c => (h c).2) (Cert.ReferenceIdeal.Lif.run (F := Ideal) m ρ)

/-- Nothing was rewritten to read the kernel over the extended reals. -/
theorem preserves : Cert.preserves_Kernel_KernelIdeal := trivial

/-- The two programs carry the same six decay patterns. -/
theorem decays_agree : Cert.ReferenceIdeal.Lif.betaOf = Cert.KernelIdeal.Lif.betaOf := by
  funext q
  fin_cases q <;> rfl

/-- From memories agreeing on the arguments both programs end at the layer's spikes, re-laid the same way. -/
theorem algebraic : Cert.algebraic_KernelIdeal_ReferenceIdeal := by
  intro m ρ m' ρ' _ hagree
  refine ⟨_, Cert.KernelIdeal.Lif.run m ρ, ?_⟩
  refine (θ_run Cert.ReferenceIdeal.defs _ _).mono (fun _ h c => ⟨(h c).1.trans ?_, (h c).2⟩)
    (Cert.ReferenceIdeal.Lif.run (F := Ideal) m' ρ')
  rw [Cert.ReferenceIdeal.Lif.spk_eq, (hagree c).1, (hagree c).2.1, (hagree c).2.2.1, (hagree c).2.2.2, decays_agree]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
